-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩
abbrev S1 : Shape := ⟨1, ![1]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  slices_S8192_S1_0 : S8192.Slices ![0] S1
  shapeCasts_S1_S_ : S1.ShapeCasts S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : IVec S1 32 := (extractStridedSlice S1 ![0] · slices_S8192_S1_0) main_arg1
  let main_v5 : IVec S_ 32 := shapeCast S_ main_v4 shapeCasts_S1_S_
  let main_c_0 : IVec S_ 32 := constantI S_ 32 0#32
  let main_v6 : IVec S_ 1 := cmpi .sge main_v5 main_c_0
  let main_v7 : IVec S_ 1 := andi main_v3 main_v6
  let main_v8 : IVec S1 32 := (extractStridedSlice S1 ![0] · slices_S8192_S1_0) main_arg1
  let main_v9 : IVec S_ 32 := shapeCast S_ main_v8 shapeCasts_S1_S_
  let main_c_1 : IVec S_ 32 := constantI S_ 32 32000#32
  let main_v10 : IVec S_ 1 := cmpi .slt main_v9 main_c_1
  let main_v11 : IVec S_ 1 := andi main_v7 main_v10
  main_v11
-- ==== Kernel.lean ====
abbrev S8192x32000 : Shape := ⟨2, ![8192, 32000]⟩
abbrev S8192 : Shape := ⟨1, ![8192]⟩
abbrev S1x32000 : Shape := ⟨2, ![1, 32000]⟩
abbrev S1 : Shape := ⟨1, ![1]⟩
abbrev S_ : Shape := ⟨0, ![]⟩
abbrev S1x1 : Shape := ⟨2, ![1, 1]⟩

abbrev nBuf : Space → Nat
  | .hbm => 7
  | .vmem => 2
  | .smem => 1
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S1x32000, .f32⟩
  | .hbm, ⟨3, _⟩ => ⟨S1, .i32⟩
  | .hbm, ⟨4, _⟩ => ⟨S_, .i32⟩
  | .hbm, ⟨5, _⟩ => ⟨S1x1, .f32⟩
  | .hbm, ⟨6, _⟩ => ⟨S_, .f32⟩
  | .local _ .vmem, ⟨0, _⟩ => ⟨S1x32000, .f32⟩
  | .local _ .vmem, ⟨1, _⟩ => ⟨S1x1, .f32⟩
  | .local _ .smem, ⟨0, _⟩ => ⟨S1, .i32⟩
  | _, _ => ⟨S8192x32000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v4 : Ref sig .tc := ⟨.hbm, 5, rfl⟩
abbrev main_v5 : Ref sig .tc := ⟨.hbm, 6, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x32000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  slices_S8192x32000_S1x32000_0_0 : S8192x32000.Slices ![0, 0] S1x32000
  slices_S8192_S1_0 : S8192.Slices ![0] S1
  shapeCasts_S1_S_ : S1.ShapeCasts S_
  shapeCasts_S_S1 : S_.ShapeCasts S1
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  reduces_S1x32000_S1 : S1x32000.Reduces [1] S1
  shapeCasts_S1_S1x1 : S1.ShapeCasts S1x1
  inb_S1_S1_0 : ∀ a, (![0] : Fin 1 → Nat) a + S1.size a ≤ S1.size a
  numel1_S1 : S1.numel = 1
  iota_S1x32000_d1_w32 : S1x32000.Iotas .tc 32 [1]
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x32000.size a ≤ S1x32000.size a
  hwx0_0 : ∀ i : grid0.Coords, EltTy.bits .f32 = 32 ∨ (Rect.block (s := S1x32000) S1x32000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev spec0_0 : Pipeline.WinSpec sig grid0.rank :=
  Pipeline.WinSpec.ofSpec (Memref.whole main_v0) S1x32000.size reads0_0 false true 1 stage0_0 sem0_0 nbuf0_0 hstage0_0

abbrev spec0_1 : Pipeline.WinSpec sig grid0.rank :=
  Pipeline.WinSpec.ofSpec (Memref.whole main_v4) S1x1.size reads0_1 true true 1 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x32000, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x32000, .f32⟩
  | .hbm, ⟨7, _⟩ => ⟨S8192x32000, .f32⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x1, .f32⟩
  | .hbm, ⟨24, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_c_0 : Ref sig .tc := ⟨.hbm, 11, rfl⟩
abbrev main_v7 : Ref sig .tc := ⟨.hbm, 12, rfl⟩
abbrev main_c_1 : Ref sig .tc := ⟨.hbm, 13, rfl⟩
abbrev main_c_2 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  slices_S8192_S1_0 : S8192.Slices ![0] S1
  shapeCasts_S1_S_ : S1.ShapeCasts S_
  sliceFits_S8192x32000_S1x1 : S8192x32000.Slices (fun _ => 0) S1x1
  shapeCasts_S1x1_S_ : S1x1.ShapeCasts S_

variable [Facts₀]

class Facts : Prop extends Facts₀ where

variable [Facts]
-- ==== Proof.RowProb.lean ====
/-
  The mathematics both programs compute, stated once over plain index types.

  For one row `x : Fin 32000 → EReal` of logits and a class `l`, the softmax probability of `l` is
  `exp (x l) / ∑ k, exp (x k)` on the extended reals.  The kernel obtains the numerator by summing the row of
  exponentials under the one-hot mask `k = l`; a finite sum whose terms vanish off `l` is its term at `l`, in any
  additive commutative monoid, so no finiteness of the inputs is used.  The reference divides the whole matrix of
  exponentials by its row sums and then picks entry `(0, l)`.

  The class arrives as a 32-bit word.  Under the domain `0 ≤ label[0] < 32000` (read signed) the word's unsigned
  value is below 32000, its signed value is that same number, and the lane counter `k` written as a word equals it
  exactly when `k` is that number.
-/
import Idealize.ShloMosaic.PureOps.Ideal
import Idealize.ShloMosaic.PureOps.Ideal.Laws
import Idealize.ShloMosaic.Lib.ValueIdx
import Idealize.ShloMosaic.Lib.DynamicIndex
import Idealize.ShloMosaic.Lib.StableHlo.Predicate
import Idealize.ShloMosaic.PureOps.ShapeOps

noncomputable section

namespace Cert.RowProb

open Idealize.ShloMosaic Idealize.ShloMosaic.ValueIdx

/-! ## One-element shapes: every index is the zero index, and a reshape out of one reads the one element -/

theorem idx1 (j : (⟨1, ![1]⟩ : Shape).Idx) : j = ix1 (0 : Fin 1) := by
  funext a
  match a with
  | ⟨0, _⟩ => exact Fin.ext (by have h : (j 0).val < 1 := (j 0).isLt; show (j 0).val = 0; omega)

theorem idx11 (j : (⟨2, ![1, 1]⟩ : Shape).Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- A reshape of a one-element vector, to any shape, holds that element everywhere. -/
theorem cast_of_one {α : Type} {t : Shape} (v : (⟨1, ![1]⟩ : Shape).Idx → α) (h : (⟨1, ![1]⟩ : Shape).ShapeCasts t) (j : t.Idx) :
    shapeCast t v h j = v (ix1 (0 : Fin 1)) := by
  unfold shapeCast
  exact congrArg v (idx1 _)

/-- A reshape of a [1, 1] vector, to any shape, holds its element everywhere. -/
theorem cast_of_one_one {α : Type} {t : Shape} (v : (⟨2, ![1, 1]⟩ : Shape).Idx → α) (h : (⟨2, ![1, 1]⟩ : Shape).ShapeCasts t) (j : t.Idx) :
    shapeCast t v h j = v (ix2 (0 : Fin 1) (0 : Fin 1)) := by
  unfold shapeCast
  exact congrArg v (idx11 _)

/-! ## The probability, the one-hot sum and the class word -/

/-- The softmax probability of class `l` for the row of logits `x`, on the extended reals. -/
def prob (x : Fin 32000 → EReal) (l : Fin 32000) : EReal :=
  Ideal.div (Ideal.exp (x l)) (∑ k : Fin 32000, Ideal.exp (x k))

/-- A sum whose terms are masked to the single position `l` is the term at `l`. -/
theorem sum_onehot {n : Nat} (f : Fin n → EReal) (l : Fin n) :
    ∑ k : Fin n, (if k = l then f k else 0) = f l := by
  rw [Finset.sum_ite_eq' Finset.univ l f, if_pos (Finset.mem_univ l)]

/-- A word that is at least 0 and below 32000, both read signed, has unsigned value below 32000. -/
theorem toNat_lt_of_range (w : BitVec 32) (h0 : IntOp.cmpi .sge w 0#32 = 1#1) (h1 : IntOp.cmpi .slt w 32000#32 = 1#1) :
    w.toNat < 32000 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have b : (32000#32 : BitVec 32).toInt = 32000 := by decide
  have hw := w.isLt
  rw [z, BitVec.toInt_eq_toNat_cond] at h0
  rw [b, BitVec.toInt_eq_toNat_cond] at h1
  by_cases hc : 2 * w.toNat < 2 ^ 32
  · rw [if_pos hc] at h1; omega
  · rw [if_neg hc] at h0; omega

/-- Such a word read signed is its unsigned value. -/
theorem toInt_of_lt (w : BitVec 32) (h : w.toNat < 32000) : w.toInt = (w.toNat : Int) :=
  StableHlo.Predicate.toInt_eq_toNat_of_lt (by omega)

/-- The lane counter `k`, as a word, equals a word of value below 32000 exactly at that value. -/
theorem lane_eq_iff (w : BitVec 32) (k : Fin 32000) :
    IntOp.cmpi .eq (BitVec.ofNat 32 k.val) w = 1#1 ↔ k.val = w.toNat := by
  rw [StableHlo.Predicate.cmpi_eq_iff]
  constructor
  · intro h
    rw [← h, BitVec.toNat_ofNat]
    exact (Nat.mod_eq_of_lt (by have := k.isLt; omega)).symm
  · intro h
    apply BitVec.eq_of_toNat_eq
    rw [BitVec.toNat_ofNat, Nat.mod_eq_of_lt (by have := k.isLt; omega)]
    exact h

end Cert.RowProb

end
-- ==== Proof.RefValue.lean ====
/-
  The reference's result, read at its single index.

  The reference exponentiates the whole [8192, 32000] matrix, divides every entry by its row's sum of exponentials
  (the row sums broadcast back along the columns), and reads one entry by a dynamic slice at (0, label[0]); jnp first
  adds 32000 to a negative index and the slice then clamps the start into the array.  For `0 ≤ label[0] < 32000` the
  wrap is not taken and the clamp is the identity, so the entry is row 0's softmax probability at that class.
-/
import proofs.«169685_j54640573940344_1_alg».proof.Proof.RefRead
import proofs.«169685_j54640573940344_1_alg».proof.Proof.RowProb
import Idealize.ShloMosaic.Lib.DynamicIndex
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx

/-- The scalar the reference indexes with is the label vector's entry 0. -/
theorem label_scalar (x1 : IVec S8192 32) (j : S_.Idx) : val_main_v6 (F := Ideal) x1 j = x1 (ix1 (0 : Fin 8192)) := by
  unfold val_main_v6
  rw [Cert.RowProb.cast_of_one, val_main_v5_apply]
  exact congrArg x1 (funext fun a => match a with | ⟨0, _⟩ => rfl)

/-- The row start of the slice is the literal 0: the wrap `0 < 0` is not taken. -/
theorem row_start : (val_main_v9 (F := Ideal) (Shape.Idx.first h_S_)).toInt = ((0 : Nat) : Int) := by decide

/-- For a label word in range the column start is the word's value: it is not negative, so jnp's wrap leaves it. -/
theorem col_start (x1 : IVec S8192 32) (hl : (x1 (ix1 (0 : Fin 8192))).toNat < 32000) :
    (val_main_v12 (F := Ideal) x1 (Shape.Idx.first h_S_)).toInt = (((x1 (ix1 (0 : Fin 8192))).toNat : Nat) : Int) := by
  have hnn : 0 ≤ (val_main_v6 (F := Ideal) x1 (Shape.Idx.first h_S_)).toInt := by
    rw [label_scalar, Cert.RowProb.toInt_of_lt _ hl]; omega
  show (select (cmpi .slt (val_main_v6 (F := Ideal) x1) (constantI S_ 32 0#32)) (val_main_v11 (F := Ideal) x1) (val_main_v6 (F := Ideal) x1) (Shape.Idx.first h_S_)).toInt = _
  rw [select_slt_zero_of_nonneg _ _ _ _ hnn, label_scalar, Cert.RowProb.toInt_of_lt _ hl]

/-- THE REFERENCE'S RESULT for a label word in range: row 0's softmax probability of that class. -/
theorem ref_apply (x0 : FVec Ideal S8192x32000 .f32) (x1 : IVec S8192 32) (hl : (x1 (ix1 (0 : Fin 8192))).toNat < 32000) (j : S_.Idx) :
    val_main_v14 (F := Ideal) x0 x1 j
      = Cert.RowProb.prob (fun k => x0 (ix2 (0 : Fin 8192) k)) ⟨(x1 (ix1 (0 : Fin 8192))).toNat, hl⟩ := by
  unfold val_main_v14
  rw [Cert.RowProb.cast_of_one_one]
  unfold val_main_v13
  have hoff : S8192x32000.Slices ![0, (x1 (ix1 (0 : Fin 8192))).toNat] S1x1 :=
    ⟨rfl, fun a => match a with
      | ⟨0, _⟩ => by show 0 + 1 ≤ 8192; omega
      | ⟨1, _⟩ => by show (x1 (ix1 (0 : Fin 8192))).toNat + 1 ≤ 32000; omega⟩
  rw [Host.dynamicSlice_eq_extractStridedSlice S1x1 _ _ ![0, (x1 (ix1 (0 : Fin 8192))).toNat] _ hoff
    (fun a => match a with
      | ⟨0, _⟩ => row_start
      | ⟨1, _⟩ => col_start x1 hl)]
  rw [extractStridedSlice_apply _ _ hoff (ix2 (0 : Fin 1) (0 : Fin 1))
    (ix2 (0 : Fin 8192) (⟨(x1 (ix1 (0 : Fin 8192))).toNat, hl⟩ : Fin 32000))
    (fun a => match a with | ⟨0, _⟩ => rfl | ⟨1, _⟩ => rfl)]
  rw [val_main_v4_apply, val_main_v3_apply, val_main_v2_apply, val_main_v1_apply, val_main_v0_apply, val_main_cst_apply]
  unfold Cert.RowProb.prob
  show Ideal.div (Ideal.exp _) (Ideal.ofBits .f32 0x00000000#32 + ∑ k : Fin 32000, _) = _
  rw [Ideal.ofBits_zero_f32, zero_add]
  refine congrArg₂ Ideal.div rfl (Finset.sum_congr rfl fun k _ => ?_)
  rw [val_main_v0_apply]
  show Ideal.exp (x0 _) = _
  exact congrArg (fun i => Ideal.exp (x0 i)) (funext fun a => match a with | ⟨0, _⟩ => rfl | ⟨1, _⟩ => rfl)

end Cert.ReferenceIdeal.RefValue

end
-- ==== Proof.LabelRange.lean ====
/-
  What the precondition says about the label: the printed predicate is a conjunction of "every logit is finite",
  "label[0] ≥ 0" and "label[0] < 32000", the last two compared as signed 32-bit words; `label[0]` is printed as the
  one-element slice of the label vector at offset 0, reshaped to a scalar.  Read at the predicate's single index, the
  conjunction being all ones gives the two comparisons of the word `label (0)`.
-/
import proofs.«169685_j54640573940344_1_alg».proof.Pre_finite_inputs
import proofs.«169685_j54640573940344_1_alg».proof.Proof.Gen.Pre_finite_inputs
import Idealize.ShloMosaic.Lib.ValueIdx
import Idealize.ShloMosaic.Lib.Pipeline.Value
import Idealize.ShloMosaic.Lib.Affine
import proofs.«169685_j54640573940344_1_alg».proof.Proof.RowProb

noncomputable section

namespace Cert.LabelRange

open Idealize.ShloMosaic Idealize.ShloMosaic.ValueIdx Cert.Pre_finite_inputs

/-- The scalar reshape of the one-element slice at offset 0 of a vector is the vector's entry 0. -/
theorem first_entry (l : IVec S8192 32) (j : S_.Idx) :
    shapeCast S_ (extractStridedSlice S1 ![0] l Cert.Pre_finite_inputs.Gen.slices_S8192_S1_0) Cert.Pre_finite_inputs.Gen.shapeCasts_S1_S_ j
      = l (ix1 (0 : Fin 8192)) := by
  rw [Cert.RowProb.cast_of_one]
  exact extractStridedSlice_apply ![0] l _ (ix1 (0 : Fin 1)) (ix1 (0 : Fin 8192)) (fun a => match a with | ⟨0, _⟩ => rfl)

/-- Under the precondition the word `label (0)` is at least 0 and below 32000, read signed. -/
theorem label_range {F : FTy → Type} [FloatOps F] (x : FVec F S8192x32000 .f32) (l : IVec S8192 32)
    (h : Cert.Pre_finite_inputs.fn (F := F) x l = fun _ => 1#1) :
    IntOp.cmpi .sge (l (ix1 (0 : Fin 8192))) 0#32 = 1#1 ∧ IntOp.cmpi .slt (l (ix1 (0 : Fin 8192))) 32000#32 = 1#1 := by
  have e := congrFun h ix0
  unfold Cert.Pre_finite_inputs.fn at e
  dsimp only at e
  simp only [andi, cmpi, constantI] at e
  rw [IntOp.andi_eq_one, IntOp.andi_eq_one, first_entry] at e
  exact ⟨e.1.2, e.2⟩

end Cert.LabelRange

end
-- ==== Proof.Pay.lean ====
/-
  The kernel body's one stored value, read at its single index.

  The body loads the row `v` of 32000 logits and the class word `w`, forms `e = exp v`, the row sum `∑ k, e k`, the
  masked row `if lane k = w then e k else 0` (the lane counter along the row compared with the broadcast word), its
  row sum, and stores the quotient of the two sums.  A row sum at the ideal instance is the plain finite sum; the
  masked sum has one surviving term, `e` at the class; so the stored value is the softmax probability of the class.
-/
import proofs.«169685_j54640573940344_1_alg».proof.Proof.Gen.KernelIdeal.Skeleton
import proofs.«169685_j54640573940344_1_alg».proof.Proof.RowProb
import Idealize.ShloMosaic.Lib.Pipeline.Value
import Idealize.ShloMosaic.PureOps.Ideal.Laws
import Idealize.ShloMosaic.Lib.ValueIdx

noncomputable section

namespace Cert.KernelIdeal.Pay

open Cert.KernelIdeal Cert.KernelIdeal.Gen Idealize.ShloMosaic Idealize.ShloMosaic.ValueIdx

/-- A sum along the row of a [1, 32000] vector, at the ideal instance, is the finite sum of the row. -/
theorem rowsum (v : FVec Ideal S1x32000 .f32) (hφ : FKind.Formats FTy.f32)
    (hacc : (0x00000000#32 : BitVec FTy.f32.bits) = FKind.add.neutral FTy.f32 hφ) (j : S1.Idx) :
    multiReduction (F := Ideal) .add [1] S1 v 0x00000000#32 reduces_S1x32000_S1 hφ hacc j
      = ∑ k : Fin 32000, v (ix2 (0 : Fin 1) k) := by
  obtain rfl := Cert.RowProb.idx1 j
  refine (Ideal.multiReduction_add_single v 0x00000000#32 reduces_S1x32000_S1 hφ hacc (ix1 (0 : Fin 1))).trans ?_
  refine Finset.sum_congr rfl fun k _ => congrArg v (funext fun a => Fin.ext ?_)
  match a with
  | ⟨0, _⟩ => rfl
  | ⟨1, _⟩ => rfl

/-- The lane counter along the row at (0, k) is the word of k. -/
theorem lane_apply (k : Fin 32000) :
    iota .tc S1x32000 32 [1] iota_S1x32000_d1_w32 (ix2 (0 : Fin 1) k) = BitVec.ofNat 32 k.val := by
  unfold iota
  show BitVec.ofNat 32 (0 * 32000 + k.val) = _
  rw [Nat.zero_mul, Nat.zero_add]

/-- THE STORED VALUE: for a class word of value below 32000 it is the softmax probability of that class. -/
theorem pay_apply (v : Vec Ideal S1x32000 .f32) (w : BitVec 32) (hw : w.toNat < 32000) (j : S1x1.Idx) :
    k0_pay1 (F := Ideal) v w j = Cert.RowProb.prob (fun k => v (ix2 (0 : Fin 1) k)) ⟨w.toNat, hw⟩ := by
  unfold k0_pay1
  dsimp only
  rw [show ∀ (a b : FVec Ideal S1x1 .f32), divf a b j = Ideal.div (a j) (b j) from fun _ _ => rfl]
  rw [Cert.RowProb.cast_of_one, Cert.RowProb.cast_of_one]
  refine (congrArg₂ Ideal.div (rowsum _ _ _ (ix1 (0 : Fin 1))) (rowsum _ _ _ (ix1 (0 : Fin 1)))).trans ?_
  rw [shapeCast_self]
  unfold Cert.RowProb.prob
  refine congrArg₂ Ideal.div ?_ rfl
  · -- the masked row sum keeps the class's exponential only
    rw [← Cert.RowProb.sum_onehot (fun k => Ideal.exp (v (ix2 (0 : Fin 1) k))) ⟨w.toNat, hw⟩]
    refine Finset.sum_congr rfl fun k _ => ?_
    show Scalar.select (IntOp.cmpi .eq (iota .tc S1x32000 32 [1] iota_S1x32000_d1_w32 (ix2 (0 : Fin 1) k)) w) (Ideal.exp (v (ix2 (0 : Fin 1) k))) (Ideal.ofBits .f32 0x00000000#32) = _
    rw [lane_apply, Ideal.ofBits_zero_f32]
    unfold Scalar.select
    by_cases hk : k = ⟨w.toNat, hw⟩
    · rw [if_pos hk]; exact if_pos ((Cert.RowProb.lane_eq_iff w k).mpr (congrArg Fin.val hk))
    · rw [if_neg hk]; exact if_neg (fun h => hk (Fin.ext ((Cert.RowProb.lane_eq_iff w k).mp h)))

end Cert.KernelIdeal.Pay

end
-- ==== Proof.KValue.lean ====
/-
  What the idealized kernel's program leaves in its result, read off the frame run.

  Before the call the program slices row 0 out of the logits ([1, 32000]) and entry 0 out of the labels, the latter
  reshaped to a scalar and back to a one-element table that the call prefetches.  The call has one grid point; its
  input block is the whole row, its output block the whole [1, 1] result; the body stores one value, the softmax
  probability of the class the table's word names (module Pay).  After the call the [1, 1] result is reshaped to
  the scalar the program returns.  So the returned scalar is row 0's softmax probability at class `label (0)`,
  provided that word's value is below 32000.
-/
import proofs.«169685_j54640573940344_1_alg».proof.Defs
import proofs.«169685_j54640573940344_1_alg».proof.Proof.Gen.KernelIdeal.Frame
import proofs.«169685_j54640573940344_1_alg».proof.Proof.Pay
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- No index map reads the prefetched table, so the table's side condition is empty. -/
theorem ok : Ok m := by unfold Ok ok0; trivial

/-- The logits and the class word `label (0)` on device `c`. -/
abbrev xs (c : Dev nD) : S8192x32000.Idx → EReal := m ((c : Thread nD τ).loc main_arg0)
abbrev word (c : Dev nD) : BitVec 32 := (m ((c : Thread nD τ).loc main_arg1) : S8192.Idx → BitVec 32) (ix1 (0 : Fin 8192))

theorem hz : (![0, 0] : Fin 2 → Nat) = fun _ => 0 := funext fun a => by fin_cases a <;> rfl

/-! ## The host operations before the call -/

/-- The sliced row is row 0 of the logits. -/
theorem V_row (c : Dev nD) (k : Fin 32000) :
    (V m c main_v0 : S1x32000.Idx → EReal) (ix2 (0 : Fin 1) k) = xs m c (ix2 (0 : Fin 8192) k) := by
  have e : (V m c main_v0 : S1x32000.Idx → EReal)
      = extractStridedSlice S1x32000 ![0, 0] (xs m c) slices_S8192x32000_S1x32000_0_0 := by
    show StableHlo.after hostOps0 (fun b => m (c, b)) (Proc.devRef .tc main_v0) = _
    after_results
  rw [e]
  exact extractStridedSlice_apply _ _ _ _ _ (fun a => match a with | ⟨0, _⟩ => rfl | ⟨1, _⟩ => (Nat.zero_add _).symm)

/-- The prefetched table's one word is `label (0)`. -/
theorem V_tbl (c : Dev nD) (j : S1.Idx) : (V m c main_v3 : S1.Idx → BitVec 32) j = word m c := by
  have e : (V m c main_v3 : S1.Idx → BitVec 32)
      = shapeCast S1 (shapeCast S_ (extractStridedSlice S1 ![0] (m ((c : Thread nD τ).loc main_arg1) : S8192.Idx → BitVec 32) slices_S8192_S1_0) shapeCasts_S1_S_) shapeCasts_S_S1 := by
    show StableHlo.after hostOps0 (fun b => m (c, b)) (Proc.devRef .tc main_v3) = _
    after_results
    rfl
  rw [e]
  show shapeCast S_ _ shapeCasts_S1_S_ (Shape.reshapeEquiv shapeCasts_S_S1 j) = _
  rw [Cert.RowProb.cast_of_one]
  exact extractStridedSlice_apply _ _ _ _ _ (fun a => match a with | ⟨0, _⟩ => rfl)

theorem hz1 : (![0] : Fin 1 → Nat) = fun _ => 0 := funext fun a => by fin_cases a; rfl

/-! ## The call's one grid point -/

/-- What the body's one store leaves in the output block: the stored value of the row block and the table's word. -/
theorem out_piece (c : Dev nD) (i : grid0.Coords) (arg2 : Memref sig .tc .vmem S1x32000 .f32) (harg2 : arg2.IsWhole)
    (arg3 : Memref sig .tc .vmem S1x1 .f32) (harg3 : arg3.IsWhole)
    (x0 : Vec Ideal S1x32000 .f32) (xt0 : TbBuf0 (F := Ideal) c tbM0_0) (w : BitVec 32)
    (hw : ∀ j : S1.Idx, (xt0 : S1.Idx → BitVec 32) j = w) :
    out0_A_1 c i arg2 harg2 arg3 harg3 x0 xt0 = k0_pay1 (F := Ideal) x0 w := by
  unfold out0_A_1
  rw [View.read_writes_eq_canon _ _ _ (cover0_A_1 c i arg2 harg2 arg3 harg3 x0 xt0)]
  unfold kernelRun0_A
  dsimp only
  try sl_unfold_words
  rw [View.canon_unit_zero hz]
  simp only [View.readAt_eq_ld, harg2.read_unread, View.ld_unit_zero (S := S1x32000) hz, View.read_whole, View.ld_unit_zero (S := S1) hz1]
  exact congrArg (k0_pay1 (F := Ideal) x0) (hw _)

/-- The input block at the point is the whole sliced row, so its entry (0, k) is the logit (0, k). -/
theorem row_apply (c : Dev nD) (t : Fin (cfgM m (ok m)).N) (k : Fin 32000) :
    (iblk m (ok m) c 0 t : Vec Ideal S1x32000 .f32) (ix2 (0 : Fin 1) k) = xs m c (ix2 (0 : Fin 8192) k) := by
  rw [← V_row m c k]
  unfold iblk
  show (V m c main_v0 : S1x32000.Idx → EReal) _ = _
  refine congrArg (V m c main_v0 : S1x32000.Idx → EReal) (funext fun a => Fin.ext ?_)
  -- a block's coordinate is its block index times the block's extent plus the coordinate inside; the index is (0, 0)
  match a with
  | ⟨0, _⟩ => show 0 * 1 + 1 * 0 = 0; rfl
  | ⟨1, _⟩ => show 0 * 32000 + 1 * (k : Nat) = (k : Nat); omega

/-- THE OUTPUT BLOCK after the point: everywhere the softmax probability of class `label (0)` in row 0. -/
theorem outs_apply (hw : ∀ c, (word m c).toNat < 32000) (c : Dev nD) (t : Fin (cfgM m (ok m)).N) (j : S1x1.Idx) :
    outsAt0 m (ok m) c t j = Cert.RowProb.prob (fun k => xs m c (ix2 (0 : Fin 8192) k)) ⟨(word m c).toNat, hw c⟩ := by
  have htbl : ∀ j : S1.Idx, (tbl m 0 : S1.Idx → BitVec 32) j = word m c := fun j => by
    obtain rfl : c = 0 := Subsingleton.elim _ _
    exact V_tbl m 0 j
  unfold outsAt0
  refine (congrFun (out_piece c (grid0.coords t) (ms0_0 m (ok m) t) (hs0_0 m (ok m) t) (ms0_1 m (ok m) t) (hs0_1 m (ok m) t)
    (iblk m (ok m) c 0 t) (tbl m 0) (word m c) htbl) j).trans ?_
  refine (Cert.KernelIdeal.Pay.pay_apply (iblk m (ok m) c 0 t) (word m c) (hw c) j).trans ?_
  exact congrArg (fun f => Cert.RowProb.prob f ⟨(word m c).toNat, hw c⟩) (funext fun k => row_apply m c t k)

/-- The one write-back writes the output block, which holds one value `v` everywhere, read through the output's block. -/
theorem flushed_const (c : Dev nD) (v : EReal) (hv : ∀ t j, outsAt0 m (ok m) c t j = v) (t : Fin (cfgM m (ok m)).N)
    (_ : ((cfgM m (ok m)).win 1).flush t = true) :
    (dats m (ok m) 0 c).flushed 1 t = (((cfgM m (ok m)).win 1).blk t).view.read (Elt Ideal) (fun _ => v) := by
  show ((cfgM m (ok m)).win 1).cut ((cfgM m (ok m)).grid.coords t) ((dats m (ok m) 0 c).after 1 t) = _
  rw [after0_1]
  funext j
  exact hv t _

/-- The output's block at the one point is the whole [1, 1] result. -/
theorem cover (i : S1x1.Idx) : ∃ t : Fin (cfgM m (ok m)).N, ((cfgM m (ok m)).win 1).flush t = true ∧ i ∈ (((cfgM m (ok m)).win 1).blk t).view.set := by
  obtain rfl := Cert.RowProb.idx11 i
  refine ⟨t0_0, flush0_1 _ _, Finset.mem_map.mpr ⟨(ix2 (0 : Fin 1) (0 : Fin 1) : S1x1.Idx), Finset.mem_univ _, funext fun a => Fin.ext ?_⟩⟩
  match a with
  | ⟨0, _⟩ => show 0 * 1 + 1 * 0 = 0; rfl
  | ⟨1, _⟩ => show 0 * 1 + 1 * 0 = 0; rfl

/-- So the [1, 1] result array ends holding `v`. -/
theorem final_const (c : Dev nD) (v : EReal) (hv : ∀ t j, outsAt0 m (ok m) c t j = v) :
    (dats m (ok m) 0 c).arrAt 1 (cfgM m (ok m)).N = fun _ => v :=
  (dats m (ok m) 0 c).arrAt_eq_of_cover 1 (fun _ => v) (flushed_const m c v hv) (cover m)

/-! ## The host operation after the call, and the run -/

/-- The returned scalar is the reshape of the [1, 1] result: `v` again. -/
theorem tail_result (c : Dev nD) (v : EReal) (hv : ∀ t j, outsAt0 m (ok m) c t j = v) (j : S_.Idx) :
    (Pipeline.afterTail pcfgs (fun _ => adm m (ok m)) (dats m (ok m)) 0 (V0 m) [hostOps1] c main_v5 : S_.Idx → EReal) j = v := by
  unfold Pipeline.afterTail
  show (StableHlo.after (hostOps1 (F := Ideal)) _ (Proc.devRef .tc main_v5) : S_.Idx → EReal) j = v
  after_results
  have hA : (Pipeline.withArrays (Pipeline.pin pcfgs (fun _ => adm m (ok m)) 0).spec c (V0 m c)
      (fun w => (dats m (ok m) 0 c).arrAt w (Pipeline.pin pcfgs (fun _ => adm m (ok m)) 0).N) (Proc.devRef .tc main_v4) : S1x1.Idx → EReal)
      = fun _ => v :=
    (Pipeline.withArrays_arr spec0 winFacts0.arr_inj c _ _ 1).trans (final_const m c v hv)
  show shapeCast S_ (_ : S1x1.Idx → EReal) shapeCasts_S1x1_S_ j = v
  rw [Cert.RowProb.cast_of_one_one]
  exact congrFun hA _

/-- THE IDEALIZED KERNEL'S RUN with its result named: the returned scalar is row 0's softmax probability at class
    `label (0)`, for a label word of value below 32000; the arguments end unchanged. -/
theorem run (hw : ∀ c, (word m c).toNat < 32000) :
    θ_run defs (onTc (τ := τ) (main (F := Ideal))) ⟨m, fun _ => 0, ρ⟩ fun r => ∀ c : Dev nD,
      r.2.mem ((c : Thread nD τ).loc main_v5)
          = (fun _ => Cert.RowProb.prob (fun k => xs m c (ix2 (0 : Fin 8192) k)) ⟨(word m c).toNat, hw c⟩)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ hq c => ?_) (run_main m ρ (ok m))
  refine ⟨?_, ?_, ?_⟩
  · refine ((hq c).2 main_v5 (by decide : main_v5 ∈ Pipeline.restRefs sig spec0)).trans ?_
    funext j
    exact tail_result m c _ (fun t j => outs_apply m hw c t j) j
  · exact ((hq c).2 main_arg0 (by decide : main_arg0 ∈ Pipeline.restRefs sig spec0)).trans (W_main_arg0 m (ok m) (dats m (ok m)) c)
  · exact ((hq c).2 main_arg1 (by decide : main_arg1 ∈ Pipeline.restRefs sig spec0)).trans (W_main_arg1 m (ok m) (dats m (ok m)) c)

end Cert.KernelIdeal.KValue

end
-- ==== Proof.lean ====
/-
  The claim: the Pallas kernel that computes, for row 0 of the logits and the class `label[0]`, the quotient of the
  one-hot-masked sum of exponentials by the full sum of exponentials, against the reference that takes the softmax
  of the whole matrix and reads entry (0, label[0]).

  On the extended reals both are `exp (x (0, l)) / ∑ k, exp (x (0, k))` with `l` the value of the word `label (0)`,
  for `0 ≤ label[0] < 32000` (the precondition's domain conjunct): the masked sum keeps exactly the term at `l`
  (module RowProb), the kernel's stored value is that quotient (module Pay) and reaches the returned scalar
  unchanged through the call's one block and the reshape after it (module KValue); the reference's dynamic slice,
  whose start jnp wraps when negative and the slice clamps, reads entry (0, l) in that domain (module RefValue).
  Finiteness of the logits is not used: the only law is that a finite sum with one non-zero term is that term.
  The three frames: the kernels' are the generated frames (no index map reads the prefetched table, so its side
  condition is empty); the reference's is its run with the result dropped.  The idealization rewrote nothing.
-/
import proofs.«169685_j54640573940344_1_alg».proof.Defs
import proofs.«169685_j54640573940344_1_alg».proof.Proof.Gen.Kernel
import proofs.«169685_j54640573940344_1_alg».proof.Proof.Gen.Kernel.Frame
import proofs.«169685_j54640573940344_1_alg».proof.Proof.Gen.KernelIdeal
import proofs.«169685_j54640573940344_1_alg».proof.Proof.Gen.KernelIdeal.Frame
import proofs.«169685_j54640573940344_1_alg».proof.Proof.Gen.ReferenceIdeal
import proofs.«169685_j54640573940344_1_alg».proof.Proof.Gen.Pre_finite_inputs
import proofs.«169685_j54640573940344_1_alg».proof.Proof.RefRun
import proofs.«169685_j54640573940344_1_alg».proof.Proof.RefRead
import proofs.«169685_j54640573940344_1_alg».proof.Proof.RefValue
import proofs.«169685_j54640573940344_1_alg».proof.Proof.LabelRange
import proofs.«169685_j54640573940344_1_alg».proof.Proof.KValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: no index map reads the table, so nothing is asked of it. -/
theorem frame_k : Cert.frame_Kernel := fun m ρ _ =>
  Cert.Kernel.Gen.frame m ρ (by unfold Cert.Kernel.Gen.Ok Cert.Kernel.ok0; trivial)

/-- The idealized kernel likewise. -/
theorem frame_ki : Cert.frame_KernelIdeal := fun m ρ _ =>
  Cert.KernelIdeal.Gen.frame m ρ (Cert.KernelIdeal.KValue.ok m)

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Under the precondition the word `label (0)` has value below 32000. -/
theorem label_lt (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.KValue.word m c).toNat < 32000 :=
  Cert.RowProb.toNat_lt_of_range _ (Cert.LabelRange.label_range (F := Ideal) _ _ (h c)).1
    (Cert.LabelRange.label_range (F := Ideal) _ _ (h c)).2

/-- Both idealized programs return row 0's softmax probability of class `label (0)`. -/
theorem algebraic : Cert.algebraic_KernelIdeal_ReferenceIdeal := by
  intro m ρ m' ρ' hpre hagree
  have hw := label_lt m hpre
  refine ⟨fun c => fun _ => Cert.RowProb.prob (fun k => Cert.KernelIdeal.KValue.xs m c (ix2 (0 : Fin 8192) k))
    ⟨(Cert.KernelIdeal.KValue.word m c).toNat, hw c⟩, Cert.KernelIdeal.KValue.run m ρ hw, ?_⟩
  refine (θ_run Cert.ReferenceIdeal.defs _ _).mono (fun _ h c => ⟨?_, (h c).2.1, (h c).2.2⟩)
    (Cert.ReferenceIdeal.ValueP.run (F := Ideal) m' ρ')
  rw [(h c).1]
  show Cert.ReferenceIdeal.ReadP.val_main_v14 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) = _
  rw [(hagree c).1, (hagree c).2]
  funext j
  exact Cert.ReferenceIdeal.RefValue.ref_apply _ _ (hw c) j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
